-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x67108864 : Shape := ⟨2, ![1, 67108864]⟩
abbrev S4x4 : Shape := ⟨2, ![4, 4]⟩
abbrev S_ : Shape := ⟨0, ![]⟩

class Facts : Prop where
  bcast_S_S1x67108864 : S_.BroadcastsInDim S1x67108864 (![] : Fin 0 → Fin S1x67108864.rank)
  reducesTo_S1x67108864_S_d0_1 : S1x67108864.ReducesTo [0, 1] S_
  h_S_ : 0 < S_.numel
  bcast_S_S4x4 : S_.BroadcastsInDim S4x4 (![] : Fin 0 → Fin S4x4.rank)
  reducesTo_S4x4_S_d0_1 : S4x4.ReducesTo [0, 1] S_

variable [Facts]

def fn {F : FTy → Type} [FloatOps F] (main_arg0 : FVec F S1x67108864 .f32) (main_arg1 : FVec F S4x4 .f32) : IVec S_ 1 :=
  let main_v0 : FVec F S1x67108864 .f32 := Host.absf main_arg0
  let main_cst : FVec F S_ .f32 := constant S_ .f32 0x7F800000#32
  let main_v1 : FVec F S1x67108864 .f32 := broadcastInDim S1x67108864 ![] bcast_S_S1x67108864 main_cst
  let main_v2 : IVec S1x67108864 1 := cmpf .olt main_v0 main_v1
  let main_c : IVec S_ 1 := constantI S_ 1 1#1
  let main_v3 : IVec S_ 1 := (fun x v => Host.reduce IntOp.andi x v reducesTo_S1x67108864_S_d0_1 h_S_) main_v2 main_c
  let main_v4 : FVec F S4x4 .f32 := Host.absf main_arg1
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  main_v8
-- ==== Kernel.lean ====
abbrev S1x67108864 : Shape := ⟨2, ![1, 67108864]⟩
abbrev S4x4 : Shape := ⟨2, ![4, 4]⟩
abbrev S8x8388608 : Shape := ⟨2, ![8, 8388608]⟩
abbrev S8x131072 : Shape := ⟨2, ![8, 131072]⟩
abbrev S1x131072 : Shape := ⟨2, ![1, 131072]⟩
abbrev S131072 : Shape := ⟨1, ![131072]⟩
abbrev S1x1 : Shape := ⟨2, ![1, 1]⟩
abbrev S67108864x1 : Shape := ⟨2, ![67108864, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x67108864, .f32⟩
  | .hbm, ⟨1, _⟩ => ⟨S4x4, .f32⟩
  | .hbm, ⟨2, _⟩ => ⟨S8x8388608, .f32⟩
  | .hbm, ⟨3, _⟩ => ⟨S8x8388608, .f32⟩
  | .hbm, ⟨4, _⟩ => ⟨S67108864x1, .f32⟩
  | .local _ .vmem, ⟨0, _⟩ => ⟨S8x131072, .f32⟩
  | .local _ .vmem, ⟨1, _⟩ => ⟨S8x131072, .f32⟩
  | .local _ .vmem, ⟨2, _⟩ => ⟨S4x4, .f32⟩
  | .local _ .vmem, ⟨3, _⟩ => ⟨S8x131072, .f32⟩
  | .local _ .vmem, ⟨4, _⟩ => ⟨S8x131072, .f32⟩
  | _, _ => ⟨S1x67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x67108864_S8x8388608 : S1x67108864.ShapeCasts S8x8388608
  inb_S4x4_S4x4_0_0 : ∀ a, (![0, 0] : Fin 2 → Nat) a + S4x4.size a ≤ S4x4.size a
  h_S4x4 : 0 < S4x4.numel
  inb_S8x131072_S1x131072_0_0 : ∀ a, (![0, 0] : Fin 2 → Nat) a + S1x131072.size a ≤ S8x131072.size a
  h_S1x131072 : 0 < S1x131072.numel
  shapeCasts_S1x131072_S131072 : S1x131072.ShapeCasts S131072
  inb_S8x131072_S1x131072_1_0 : ∀ a, (![1, 0] : Fin 2 → Nat) a + S1x131072.size a ≤ S8x131072.size a
  inb_S8x131072_S1x131072_2_0 : ∀ a, (![2, 0] : Fin 2 → Nat) a + S1x131072.size a ≤ S8x131072.size a
  inb_S8x131072_S1x131072_3_0 : ∀ a, (![3, 0] : Fin 2 → Nat) a + S1x131072.size a ≤ S8x131072.size a
  inb_S8x131072_S1x131072_4_0 : ∀ a, (![4, 0] : Fin 2 → Nat) a + S1x131072.size a ≤ S8x131072.size a
  inb_S8x131072_S1x131072_5_0 : ∀ a, (![5, 0] : Fin 2 → Nat) a + S1x131072.size a ≤ S8x131072.size a
  inb_S8x131072_S1x131072_6_0 : ∀ a, (![6, 0] : Fin 2 → Nat) a + S1x131072.size a ≤ S8x131072.size a
  inb_S8x131072_S1x131072_7_0 : ∀ a, (![7, 0] : Fin 2 → Nat) a + S1x131072.size a ≤ S8x131072.size a
  shapeCasts_S131072_S1x131072 : S131072.ShapeCasts S1x131072
  slices_S4x4_o0_0_S1x1 : S4x4.Slices ![0, 0] S1x1
  inpos_S1x1_p0_0 : ∀ a, (![0, 0] : Fin 2 → Nat) a < S1x1.size a
  slices_S4x4_o0_1_S1x1 : S4x4.Slices ![0, 1] S1x1
  slices_S4x4_o0_2_S1x1 : S4x4.Slices ![0, 2] S1x1
  slices_S4x4_o0_3_S1x1 : S4x4.Slices ![0, 3] S1x1
  slices_S4x4_o1_0_S1x1 : S4x4.Slices ![1, 0] S1x1
  slices_S4x4_o1_1_S1x1 : S4x4.Slices ![1, 1] S1x1
  slices_S4x4_o1_2_S1x1 : S4x4.Slices ![1, 2] S1x1
  slices_S4x4_o1_3_S1x1 : S4x4.Slices ![1, 3] S1x1
  slices_S4x4_o2_0_S1x1 : S4x4.Slices ![2, 0] S1x1
  slices_S4x4_o2_1_S1x1 : S4x4.Slices ![2, 1] S1x1
  slices_S4x4_o2_2_S1x1 : S4x4.Slices ![2, 2] S1x1
  slices_S4x4_o2_3_S1x1 : S4x4.Slices ![2, 3] S1x1
  slices_S4x4_o3_0_S1x1 : S4x4.Slices ![3, 0] S1x1
  slices_S4x4_o3_1_S1x1 : S4x4.Slices ![3, 1] S1x1
  slices_S4x4_o3_2_S1x1 : S4x4.Slices ![3, 2] S1x1
  slices_S4x4_o3_3_S1x1 : S4x4.Slices ![3, 3] S1x1
  shapeCasts_S8x8388608_S67108864x1 : S8x8388608.ShapeCasts S67108864x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S8x8388608.size a
  hwx0_0 : ∀ i : grid0.Coords, EltTy.bits .f32 = 32 ∨ (Rect.block (s := S8x8388608) S8x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4.size a ≤ S4x4.size a
  hwx0_1 : ∀ i : grid0.Coords, EltTy.bits .f32 = 32 ∨ (Rect.block (s := S4x4) S4x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x131072.size a ≤ S8x8388608.size a
  hwx0_2 : ∀ i : grid0.Coords, EltTy.bits .f32 = 32 ∨ (Rect.block (s := S8x8388608) S8x131072.size (cc0_transform_2 i) (hinb0_2 i)).WholeWords (EltTy.packing .f32)

variable [Facts₀]

abbrev win0_0 : Pipeline.Window sig grid0 :=
  Pipeline.Window.ofSpec (Memref.whole main_v0) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x67108864 : Shape := ⟨2, ![1, 67108864]⟩
abbrev S4x4 : Shape := ⟨2, ![4, 4]⟩
abbrev S1x2x2x2x2x2x2x2x2x2x2x2x2x2x2x2x2x2x2x2x2x2x2x2x2x2x2 : Shape := ⟨27, ![1, 2, 2, 2, 2, 2, 2, 2, 2, 2, 2, 2, 2, 2, 2, 2, 2, 2, 2, 2, 2, 2, 2, 2, 2, 2, 2]⟩
abbrev S2x2x1x2x2x2x2x2x2x2x2x2x2x2x2x2x2x2x2x2x2x2x2x2x2x2x2 : Shape := ⟨27, ![2, 2, 1, 2, 2, 2, 2, 2, 2, 2, 2, 2, 2, 2, 2, 2, 2, 2, 2, 2, 2, 2, 2, 2, 2, 2, 2]⟩
abbrev S4x8388608x2 : Shape := ⟨3, ![4, 8388608, 2]⟩
abbrev S4x8388608x1 : Shape := ⟨3, ![4, 8388608, 1]⟩
abbrev S4x8388608 : Shape := ⟨2, ![4, 8388608]⟩
abbrev S_ : Shape := ⟨0, ![]⟩
abbrev S1 : Shape := ⟨1, ![1]⟩
abbrev S67108864x1 : Shape := ⟨2, ![67108864, 1]⟩

abbrev nBuf : Space → Nat
  | .hbm => 14
  | .vmem => 0
  | .smem => 0
  | _ => 0

abbrev bufTy : (tb : Table) → Fin (tcTables nBuf tb) → BufTy
  | .hbm, ⟨0, _⟩ => ⟨S1x67108864, .f32⟩
  | .hbm, ⟨1, _⟩ => ⟨S4x4, .f32⟩
  | .hbm, ⟨2, _⟩ => ⟨S1x2x2x2x2x2x2x2x2x2x2x2x2x2x2x2x2x2x2x2x2x2x2x2x2x2x2, .f32⟩
  | .hbm, ⟨3, _⟩ => ⟨S2x2x1x2x2x2x2x2x2x2x2x2x2x2x2x2x2x2x2x2x2x2x2x2x2x2x2, .f32⟩
  | .hbm, ⟨4, _⟩ => ⟨S4x8388608x2, .f32⟩
  | .hbm, ⟨5, _⟩ => ⟨S4x8388608x1, .f32⟩
  | .hbm, ⟨6, _⟩ => ⟨S4x8388608, .f32⟩
  | .hbm, ⟨7, _⟩ => ⟨S4x8388608, .f32⟩
  | .hbm, ⟨8, _⟩ => ⟨S_, .i32⟩
  | .hbm, ⟨9, _⟩ => ⟨S1, .i32⟩
  | .hbm, ⟨10, _⟩ => ⟨S4x8388608x2, .f32⟩
  | .hbm, ⟨11, _⟩ => ⟨S2x2x1x2x2x2x2x2x2x2x2x2x2x2x2x2x2x2x2x2x2x2x2x2x2x2x2, .f32⟩
  | .hbm, ⟨12, _⟩ => ⟨S1x2x2x2x2x2x2x2x2x2x2x2x2x2x2x2x2x2x2x2x2x2x2x2x2x2x2, .f32⟩
  | .hbm, ⟨13, _⟩ => ⟨S67108864x1, .f32⟩
  | _, _ => ⟨S1x67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  shapeCasts_S1x67108864_S1x2x2x2x2x2x2x2x2x2x2x2x2x2x2x2x2x2x2x2x2x2x2x2x2x2x2 : S1x67108864.ShapeCasts S1x2x2x2x2x2x2x2x2x2x2x2x2x2x2x2x2x2x2x2x2x2x2x2x2x2x2
  transposes_S1x2x2x2x2x2x2x2x2x2x2x2x2x2x2x2x2x2x2x2x2x2x2x2x2x2x2_S2x2x1x2x2x2x2x2x2x2x2x2x2x2x2x2x2x2x2x2x2x2x2x2x2x2x2_1_2_0_4_5_6_7_8_9_10_11_12_13_14_15_16_17_18_19_20_21_22_23_24_25_26_3 : S1x2x2x2x2x2x2x2x2x2x2x2x2x2x2x2x2x2x2x2x2x2x2x2x2x2x2.Transposes [1, 2, 0, 4, 5, 6, 7, 8, 9, 10, 11, 12, 13, 14, 15, 16, 17, 18, 19, 20, 21, 22, 23, 24, 25, 26, 3] S2x2x1x2x2x2x2x2x2x2x2x2x2x2x2x2x2x2x2x2x2x2x2x2x2x2x2
  shapeCasts_S2x2x1x2x2x2x2x2x2x2x2x2x2x2x2x2x2x2x2x2x2x2x2x2x2x2x2_S4x8388608x2 : S2x2x1x2x2x2x2x2x2x2x2x2x2x2x2x2x2x2x2x2x2x2x2x2x2x2x2.ShapeCasts S4x8388608x2
  slices_S4x8388608x2_S4x8388608x1_0_0_1 : S4x8388608x2.Slices ![0, 0, 1] S4x8388608x1
  shapeCasts_S4x8388608x1_S4x8388608 : S4x8388608x1.ShapeCasts S4x8388608
  bcast_S_S1 : S_.BroadcastsInDim S1 (![] : Fin 0 → Fin S1.rank)
  shapeCasts_S4x8388608x2_S2x2x1x2x2x2x2x2x2x2x2x2x2x2x2x2x2x2x2x2x2x2x2x2x2x2x2 : S4x8388608x2.ShapeCasts S2x2x1x2x2x2x2x2x2x2x2x2x2x2x2x2x2x2x2x2x2x2x2x2x2x2x2
  transposes_S2x2x1x2x2x2x2x2x2x2x2x2x2x2x2x2x2x2x2x2x2x2x2x2x2x2x2_S1x2x2x2x2x2x2x2x2x2x2x2x2x2x2x2x2x2x2x2x2x2x2x2x2x2x2_2_0_1_26_3_4_5_6_7_8_9_10_11_12_13_14_15_16_17_18_19_20_21_22_23_24_25 : S2x2x1x2x2x2x2x2x2x2x2x2x2x2x2x2x2x2x2x2x2x2x2x2x2x2x2.Transposes [2, 0, 1, 26, 3, 4, 5, 6, 7, 8, 9, 10, 11, 12, 13, 14, 15, 16, 17, 18, 19, 20, 21, 22, 23, 24, 25] S1x2x2x2x2x2x2x2x2x2x2x2x2x2x2x2x2x2x2x2x2x2x2x2x2x2x2
  shapeCasts_S1x2x2x2x2x2x2x2x2x2x2x2x2x2x2x2x2x2x2x2x2x2x2x2x2x2x2_S67108864x1 : S1x2x2x2x2x2x2x2x2x2x2x2x2x2x2x2x2x2x2x2x2x2x2x2x2x2x2.ShapeCasts S67108864x1
  dot_S4x4_S4x8388608_S4x8388608_1_0_0_1_n_n_wf : DotDims.WF S4x4 S4x8388608 S4x8388608 [1] [0] [0] [1] [] []
  scatter_S4x8388608x2_S1_S4x8388608_01_2_2_0_wf : ScatterDims.WF S4x8388608x2 S1 S4x8388608 [0, 1] [2] [2] 0

variable [Facts₀]

def dot_S4x4_S4x8388608_S4x8388608_1_0_0_1_n_n : DotDims S4x4 S4x8388608 S4x8388608 where
  lhsContracting := [1]
  rhsContracting := [0]
  lhsNonContracting := [0]
  rhsNonContracting := [1]
  lhsBatch := []
  rhsBatch := []
  wf := dot_S4x4_S4x8388608_S4x8388608_1_0_0_1_n_n_wf
def scatter_S4x8388608x2_S1_S4x8388608_01_2_2_0 : ScatterDims S4x8388608x2 S1 S4x8388608 where
  updateWindowDims := [0, 1]
  insertedWindowDims := [2]
  scatterDimsToOperandDims := [2]
  indexVectorDim := 0
  wf := scatter_S4x8388608x2_S1_S4x8388608_01_2_2_0_wf

class Facts : Prop extends Facts₀ where

variable [Facts]
-- ==== Proof.LibRowMajor.lean ====
/-
  Two general facts about the row-major position of a multi-index.

  The row-major position of `x` in a box of extents `d` is the mixed-radix number whose digits are the coordinates of `x`,
  the last axis the fastest. The library peels the FIRST axis off (`rowMajorPi_succ_val`: first digit times the product
  of the other extents, plus the position of the rest). Here: the position depends only on the extents and the
  coordinates as numbers (`rowMajorPi_val_congr`), and the LAST axis can be peeled off as well
  (`rowMajorPi_last_val`: position of the leading coordinates times the last extent, plus the last coordinate).
-/
import Idealize.ShloMosaic.Shape
import Mathlib.Tactic.Ring

namespace Idealize.ShloMosaic.Shape

/-- Equal extents and equal coordinates (as naturals) give the same row-major position. -/
theorem rowMajorPi_val_congr {n : Nat} {d d' : Fin n → Nat} (hd : ∀ a, d a = d' a)
    (x : (a : Fin n) → Fin (d a)) (x' : (a : Fin n) → Fin (d' a)) (hx : ∀ a, (x a).val = (x' a).val) :
    (rowMajorPi d x).val = (rowMajorPi d' x').val := by
  obtain rfl : d = d' := funext hd
  have e : x = x' := funext fun a => Fin.ext (hx a)
  rw [e]

/-- Peeling the FIRST axis with the product of the other extents given as a number `P`: the form to rewrite with when
    the extents are literals (the product also occurs in the type of the remaining position, so it cannot be rewritten
    in place). -/
theorem rowMajorPi_succ_val_of {n : Nat} {d : Fin (n + 1) → Nat} {P : Nat} (hP : (∏ a : Fin n, d a.succ) = P)
    (x : (a : Fin (n + 1)) → Fin (d a)) :
    (rowMajorPi d x).val = (x 0).val * P + (rowMajorPi (fun a => d a.succ) (fun a => x a.succ)).val := by
  subst hP
  exact rowMajorPi_succ_val d x

/-- Peeling the LAST axis: the position is the position of the leading coordinates (in the box of the leading extents)
    times the last extent, plus the last coordinate. -/
theorem rowMajorPi_last_val {n : Nat} (d : Fin (n + 1) → Nat) (x : (a : Fin (n + 1)) → Fin (d a)) :
    (rowMajorPi d x).val
      = (rowMajorPi (fun a : Fin n => d a.castSucc) (fun a => x a.castSucc)).val * d (Fin.last n) + (x (Fin.last n)).val := by
  induction n with
  | zero =>
    rw [rowMajorPi_succ_val, rowMajorPi_zero, rowMajorPi_zero]
    simp
  | succ n ih =>
    rw [rowMajorPi_succ_val, ih (fun a => d a.succ) (fun a => x a.succ),
      rowMajorPi_succ_val (fun a : Fin (n + 1) => d a.castSucc) (fun a => x a.castSucc), Fin.prod_univ_castSucc]
    simp only [Fin.succ_last, Fin.succ_castSucc, Fin.castSucc_zero]
    ring

end Idealize.ShloMosaic.Shape
-- ==== Proof.Relayout.lean ====
/-
  The reference re-lays its row of 2^26 numbers through a box of 27 axes: the row is read as a box [1, 2, 2, …, 2]
  (26 binary axes: the position's binary digits, most significant first), the axes are permuted so that binary axis 3
  (the digit of weight 2^23) goes last, and the result is read as a box [4, 2^23, 2]. This file computes what that does
  to positions. For a multi-index `j` of the first box and `j'` of the permuted box that name the same element
  (`j'` is `j` with its digit of weight 2^23 moved to the end), with `T` the number made of the two leading digits,
  `c` the moved digit and `M` the number made of the 23 trailing digits:
      position of `j`  = T * 2^24 + c * 2^23 + M,      position of `j'` = (T * 2^23 + M) * 2 + c.
  Both positions are peeled axis by axis: three axes off the front of each, then the moved digit off the front of the
  one and off the back of the other; what remains is the same 23-digit number `M` on both sides.
-/
import proofs.«169698_j22935125360825_1_alg».proof.ReferenceIdeal
import proofs.«169698_j22935125360825_1_alg».proof.Proof.LibRowMajor

noncomputable section

namespace Cert.Gate.Ref

open Idealize.ShloMosaic Cert.ReferenceIdeal

/-- The box of the position's binary digits, a unit axis in front. -/
abbrev SA : Shape := S1x2x2x2x2x2x2x2x2x2x2x2x2x2x2x2x2x2x2x2x2x2x2x2x2x2x2
/-- The same box with the digit of weight 2^23 moved to the end (and the unit axis third). -/
abbrev SB : Shape := S2x2x1x2x2x2x2x2x2x2x2x2x2x2x2x2x2x2x2x2x2x2x2x2x2x2x2

theorem prodA1 : (∏ a : Fin 26, SA.size a.succ) = 67108864 := by decide
theorem prodA2 : (∏ a : Fin 25, SA.size a.succ.succ) = 33554432 := by decide
theorem prodA3 : (∏ a : Fin 24, SA.size a.succ.succ.succ) = 16777216 := by decide
theorem prodA4 : (∏ a : Fin 23, SA.size a.succ.succ.succ.succ) = 8388608 := by decide
theorem prodB1 : (∏ a : Fin 26, SB.size a.succ) = 33554432 := by decide
theorem prodB2 : (∏ a : Fin 25, SB.size a.succ.succ) = 16777216 := by decide
theorem prodB3 : (∏ a : Fin 24, SB.size a.succ.succ.succ) = 16777216 := by decide
theorem sizeB_last : SB.size (Fin.last 23).succ.succ.succ = 2 := by decide
/-- The 23 trailing binary axes of the first box are the 23 axes before the last of the second. -/
theorem size_mid : ∀ a : Fin 23, SA.size a.succ.succ.succ.succ = SB.size a.castSucc.succ.succ.succ := by decide

/-- The 23 trailing digits of `j`, as a number. -/
def midA (j : SA.Idx) : Nat :=
  (Shape.rowMajorPi (fun a : Fin 23 => SA.size a.succ.succ.succ.succ) (fun a => j a.succ.succ.succ.succ)).val
/-- The 23 digits of `j'` before its last, as a number. -/
def midB (j' : SB.Idx) : Nat :=
  (Shape.rowMajorPi (fun a : Fin 23 => SB.size a.castSucc.succ.succ.succ) (fun a => j' a.castSucc.succ.succ.succ)).val

theorem midA_lt (j : SA.Idx) : midA j < 8388608 := by
  have h := (Shape.rowMajorPi (fun a : Fin 23 => SA.size a.succ.succ.succ.succ) (fun a => j a.succ.succ.succ.succ)).isLt
  exact lt_of_lt_of_eq h prodA4

/-- The position of `j`: the unit axis contributes nothing, the three leading digits their weights, the rest `midA`. -/
theorem posA (j : SA.Idx) :
    (SA.rowMajor j).val = (j 1).val * 33554432 + (j 2).val * 16777216 + (j 3).val * 8388608 + midA j := by
  have h0 : (j 0).val < 1 := (j 0).isLt
  show (Shape.rowMajorPi SA.size j).val = _
  rw [Shape.rowMajorPi_succ_val_of prodA1, Shape.rowMajorPi_succ_val_of prodA2, Shape.rowMajorPi_succ_val_of prodA3,
    Shape.rowMajorPi_succ_val_of prodA4]
  show (j 0).val * 67108864 + ((j 1).val * 33554432 + ((j 2).val * 16777216 + ((j 3).val * 8388608 + midA j))) = _
  omega

/-- The position of `j'`: two leading digits, the unit axis, then `midB` doubled plus the last digit. -/
theorem posB (j' : SB.Idx) :
    (SB.rowMajor j').val = (j' 0).val * 33554432 + (j' 1).val * 16777216 + midB j' * 2 + (j' 26).val := by
  have h2 : (j' 2).val < 1 := (j' 2).isLt
  show (Shape.rowMajorPi SB.size j').val = _
  rw [Shape.rowMajorPi_succ_val_of prodB1, Shape.rowMajorPi_succ_val_of prodB2, Shape.rowMajorPi_succ_val_of prodB3,
    Shape.rowMajorPi_last_val]
  show (j' 0).val * 33554432 + ((j' 1).val * 16777216 + ((j' 2).val * 16777216 + (midB j' * 2 + (j' 26).val))) = _
  omega

/-- The two positions of one element, in the digits `T` (two leading), `c` (the moved one) and `M` (23 trailing). -/
theorem pair_rel (j : SA.Idx) (j' : SB.Idx)
    (h1 : (j 1).val = (j' 0).val) (h2 : (j 2).val = (j' 1).val) (h3 : (j 3).val = (j' 26).val)
    (hmid : ∀ a : Fin 23, (j a.succ.succ.succ.succ).val = (j' a.castSucc.succ.succ.succ).val) :
    ∃ T c M : Nat, T < 4 ∧ c < 2 ∧ M < 8388608 ∧ (SA.rowMajor j).val = T * 16777216 + c * 8388608 + M
      ∧ (SB.rowMajor j').val = (T * 8388608 + M) * 2 + c := by
  have e : midA j = midB j' := Shape.rowMajorPi_val_congr size_mid _ _ hmid
  have b0 : (j' 0).val < 2 := (j' 0).isLt
  have b1 : (j' 1).val < 2 := (j' 1).isLt
  have b26 : (j' 26).val < 2 := (j' 26).isLt
  have bM := midA_lt j
  refine ⟨(j' 0).val * 2 + (j' 1).val, (j' 26).val, midA j, by omega, b26, bM, ?_, ?_⟩
  · rw [posA, h1, h2, h3]; omega
  · rw [posB, ← e]; omega

end Cert.Gate.Ref

end
-- ==== Proof.LibScatterSet.lean ====
/-
  Reading a scatter whose body returns the update ("set") at an index of the operand.

  The scatter is the left fold, over the update indices in row-major order, of the step
  "replace the element at the landing index by the update's element". When every update
  index lands inside the operand, at `g j`, and `g` is injective, each landing index
  holds its own update's element at the end, and an index no update lands on keeps the
  operand's element.
-/
import Idealize.ShloMosaic.PureOps.ShapeOps
import Idealize.ShloMosaic.PureOps.Dims

namespace Idealize.ShloMosaic.ScatterSet

open Idealize.ShloMosaic

variable {s si u : Shape} {α : Type} {w : Nat}

/-- One step of the fold when update position `n` lands at `g` of its index: the element
    there becomes the update's element, every other element stays. -/
def step (upd : u.Idx → α) (g : u.Idx → s.Idx) (r : s.Idx → α) (n : Fin u.numel) : s.Idx → α :=
  fun i' => if i' = g (u.rowMajor.symm n) then upd (u.rowMajor.symm n) else r i'

/-- With every update index landing at `g j`, the scatter is the fold of `step`. -/
theorem scatter_eq_foldl (d : ScatterDims s si u) (x : s.Idx → α) (idx : IVec si w) (upd : u.Idx → α)
    (g : u.Idx → s.Idx) (hg : ∀ j, d.resultIdx? j idx = some (g j)) :
    Host.scatter d (fun _ b => b) x idx upd = (List.finRange u.numel).foldl (step upd g) x := by
  unfold Host.scatter
  congr 1
  funext r n
  rw [hg]
  rfl

/-- (A) An index that no update lands on keeps the accumulator's element through any list of steps. -/
theorem foldl_missed (upd : u.Idx → α) (g : u.Idx → s.Idx) (i : s.Idx) (hi : ∀ j, g j ≠ i) :
    ∀ (l : List (Fin u.numel)) (acc : s.Idx → α), l.foldl (step upd g) acc i = acc i := by
  intro l
  induction l with
  | nil => intro acc; rfl
  | cons n t ih =>
    intro acc
    rw [List.foldl_cons, ih]
    unfold step
    exact if_neg (fun h => hi _ h.symm)

/-- (B) Once the accumulator holds `upd j` at `g j` it still does after any list of steps: a step
    landing on `g j` comes from an update index equal to `j`, because `g` is injective. -/
theorem foldl_kept (upd : u.Idx → α) (g : u.Idx → s.Idx) (hinj : Function.Injective g) (j : u.Idx) :
    ∀ (l : List (Fin u.numel)) (acc : s.Idx → α), acc (g j) = upd j → l.foldl (step upd g) acc (g j) = upd j := by
  intro l
  induction l with
  | nil => intro acc h; exact h
  | cons n t ih =>
    intro acc h
    rw [List.foldl_cons]
    apply ih
    unfold step
    by_cases hn : g j = g (u.rowMajor.symm n)
    · rw [if_pos hn, ← hinj hn]
    · rw [if_neg hn]; exact h

/-- (C) If the row-major position of `j` is in the list, the fold holds `upd j` at `g j`. -/
theorem foldl_landed (upd : u.Idx → α) (g : u.Idx → s.Idx) (hinj : Function.Injective g) (j : u.Idx) :
    ∀ (l : List (Fin u.numel)) (acc : s.Idx → α), u.rowMajor j ∈ l → l.foldl (step upd g) acc (g j) = upd j := by
  intro l
  induction l with
  | nil => intro acc h; cases h
  | cons n t ih =>
    intro acc h
    rw [List.foldl_cons]
    rcases List.mem_cons.1 h with h | h
    · apply foldl_kept upd g hinj j
      unfold step
      rw [← h, Equiv.symm_apply_apply, if_pos rfl]
    · exact ih _ h

/-- A "set" scatter whose update indices all land inside the operand, at pairwise distinct
    indices `g j`, holds the update's element `upd j` at `g j`. -/
theorem landed (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_eq_foldl d x idx upd g hg]
  exact foldl_landed upd g hinj j _ _ (List.mem_finRange _)

/-- A "set" scatter whose update indices all land inside the operand, at `g j`, keeps the
    operand's element at an index that is no `g j`. -/
theorem missed (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  rw [scatter_eq_foldl d x idx upd g hg]
  exact foldl_missed upd g i hi _ _

end Idealize.ShloMosaic.ScatterSet
-- ==== Proof.ScatterRead.lean ====
/-
  Reading this program's scatter at an index of its operand.

  The scatter has ONE scatter index, the constant 1, named for operand axis 2; its update
  window spans operand axes 0 and 1 and axis 2 is an inserted window axis. So update index
  (t, r) lands at (t, r, 1): the start is 1 on axis 2 and 0 elsewhere, the window coordinate is
  t, r on axes 0, 1 and 0 on axis 2. That map is injective and every landing index is inside
  the operand, so the result at (t, r, 1) is the update at (t, r) and at (t, r, 0) the operand's.
-/
import proofs.«169698_j22935125360825_1_alg».proof.Proof.ReadP
import proofs.«169698_j22935125360825_1_alg».proof.Proof.LibScatterSet
import Idealize.ShloMosaic.Lib.ValueIdx

namespace Cert.Gate.Ref
open Idealize.ShloMosaic Idealize.ShloMosaic.ValueIdx Cert.ReferenceIdeal Cert.ReferenceIdeal.Gen

/-- The operand index update index `j` lands at: `j`'s two coordinates, then `1` on the last axis. -/
def land (j : S4x8388608.Idx) : S4x8388608x2.Idx :=
  ix3 (n0 := 4) (n1 := 8388608) (n2 := 2) (j 0) (j 1) 1

theorem land_injective : Function.Injective land := by
  intro j j' h
  funext a
  match a with
  | ⟨0, _⟩ => exact congrFun h 0
  | ⟨1, _⟩ => exact congrFun h 1

private abbrev sd := scatter_S4x8388608x2_S1_S4x8388608_01_2_2_0
private abbrev sidx : IVec S1 32 := Cert.ReferenceIdeal.ReadP.val_main_v6 (F := Ideal)

theorem start_add_window (j : S4x8388608.Idx) (a : Fin 3) :
    sd.start j sidx a + (sd.window j a : Int) = ((land j a).val : Int) := by
  match a with
  | ⟨0, h⟩ =>
    have hs : sd.start j sidx ⟨0, h⟩ = 0 := by
      unfold ScatterDims.start; exact dif_neg (by decide : (⟨0, by decide⟩ : Fin 3) ∉ sd.scatterDimsToOperandDims)
    have hw : sd.window j ⟨0, h⟩ = (j 0).val := by
      unfold ScatterDims.window; rw [dif_pos (by decide : (⟨0, by decide⟩ : Fin 3) ∈ sd.sKept)]; rfl
    rw [hs, hw, Int.zero_add]; rfl
  | ⟨1, h⟩ =>
    have hs : sd.start j sidx ⟨1, h⟩ = 0 := by
      unfold ScatterDims.start; exact dif_neg (by decide : (⟨1, by decide⟩ : Fin 3) ∉ sd.scatterDimsToOperandDims)
    have hw : sd.window j ⟨1, h⟩ = (j 1).val := by
      unfold ScatterDims.window; rw [dif_pos (by decide : (⟨1, by decide⟩ : Fin 3) ∈ sd.sKept)]; rfl
    rw [hs, hw, Int.zero_add]; rfl
  | ⟨2, h⟩ =>
    have hs : sd.start j sidx ⟨2, h⟩ = 1 := by
      unfold ScatterDims.start; rw [dif_pos (by decide : (⟨2, by decide⟩ : Fin 3) ∈ sd.scatterDimsToOperandDims)]
      show (Cert.ReferenceIdeal.ReadP.val_main_v6 (F := Ideal) _).toInt = 1
      rw [Cert.ReferenceIdeal.ReadP.val_main_v6_apply, Cert.ReferenceIdeal.ReadP.val_main_c_apply]
      decide
    have hw : sd.window j ⟨2, h⟩ = 0 := by
      unfold ScatterDims.window; exact dif_neg (by decide : (⟨2, by decide⟩ : Fin 3) ∉ sd.sKept)
    rw [hs, hw]; rfl

theorem resultIdx_eq (j : S4x8388608.Idx) : sd.resultIdx? j sidx = some (land j) := by
  unfold ScatterDims.resultIdx?
  rw [dif_pos (fun a => by
    rw [start_add_window j a]
    exact ⟨Int.natCast_nonneg _, by exact_mod_cast (land j a).isLt⟩)]
  congr 1
  funext a
  apply Fin.ext
  show (sd.start j sidx a + (sd.window j a : Int)).toNat = (land j a).val
  rw [start_add_window j a, Int.toNat_natCast]

theorem scatter_read {α : Type} (x : S4x8388608x2.Idx → α) (upd : S4x8388608.Idx → α) (t : Fin 4) (r : Fin 8388608) (c : Fin 2) :
    Host.scatter scatter_S4x8388608x2_S1_S4x8388608_01_2_2_0 (fun _ b => b) x (Cert.ReferenceIdeal.ReadP.val_main_v6 (F := Ideal)) upd (ix3 t r c)
      = if c.val = 1 then upd (ix2 t r) else x (ix3 t r c) := by
  by_cases hc : c.val = 1
  · rw [if_pos hc]
    have e : (ix3 t r c : S4x8388608x2.Idx) = land (ix2 t r) := by
      funext a
      match a with
      | ⟨0, _⟩ => rfl
      | ⟨1, _⟩ => rfl
      | ⟨2, _⟩ => exact Fin.ext hc
    rw [e]
    exact ScatterSet.landed sd x sidx upd land resultIdx_eq land_injective (ix2 t r)
  · rw [if_neg hc]
    refine ScatterSet.missed sd x sidx upd land resultIdx_eq _ (fun j hj => hc ?_)
    have := congrFun hj 2
    exact (congrArg Fin.val this).symm

end Cert.Gate.Ref
-- ==== Proof.Spec.lean ====
/-
  The specification both programs are measured against.

  The input `x` is a row of 2^26 numbers, read as 8 consecutive bands of 2^23 (band `b`, place `r`: position
  `b * 2^23 + r`). A band with an even number is passed through. The four odd bands 1, 3, 5, 7 are mixed, place by
  place, by the 4×4 matrix: odd band `2 t + 1` of the result holds, at place `r`, the sum over `k` of
  `mat t k * x[(2 k + 1) * 2^23 + r]`. The result is the column of the 2^26 numbers so obtained.
-/
import Idealize.ShloMosaic.PureOps.Ideal
import Idealize.ShloMosaic.Lib.ValueIdx

noncomputable section

namespace Cert.Gate

open Idealize.ShloMosaic Idealize.ShloMosaic.ValueIdx

/-- The row of inputs, the matrix, the column of results. -/
abbrev SX : Shape := ⟨2, ![1, 67108864]⟩
abbrev SM : Shape := ⟨2, ![4, 4]⟩
abbrev SO : Shape := ⟨2, ![67108864, 1]⟩

/-- Position `n` of the input row. -/
abbrev xAt (n : ℕ) (h : n < 67108864) : SX.Idx := ix2 (⟨0, Nat.one_pos⟩ : Fin 1) (⟨n, h⟩ : Fin 67108864)

/-- Entry `(t, k)` of the matrix. -/
abbrev mAt (t k : Fin 4) : SM.Idx := ix2 t k

theorem band_lt {n : ℕ} (h : n < 67108864) : n / 16777216 < 4 := by omega

theorem odd_lt (k : Fin 4) (n : ℕ) : (2 * k.val + 1) * 8388608 + n % 8388608 < 67108864 := by
  have := k.isLt; omega

/-- The result at position `n` (band `n / 2^23`, place `n % 2^23`): the input there when the band is even, and
    otherwise row `n / 2^24` of the matrix applied to the four odd bands at that place. -/
def G (x : FVec Ideal SX .f32) (mat : FVec Ideal SM .f32) : FVec Ideal SO .f32 := fun i =>
  if (i 0).val / 8388608 % 2 = 0 then x (xAt (i 0).val (i 0).isLt)
  else ∑ k : Fin 4, mat (mAt ⟨(i 0).val / 16777216, band_lt (i 0).isLt⟩ k)
        * x (xAt ((2 * k.val + 1) * 8388608 + (i 0).val % 8388608) (odd_lt k (i 0).val))

end Cert.Gate

end
-- ==== Proof.RefValue.lean ====
/-
  What the reference computes, read at a position: it is the specification.

  The reference views the row as [4, 2^23, 2] through the 27-axis box (`t` = the two leading binary digits, `c` = the
  digit of weight 2^23, `r` = the 23 trailing digits): element (t, r, c) of that view is the input at position
  `t * 2^24 + c * 2^23 + r` (`view_apply`). It multiplies the matrix into the slice `c = 1` (a sum over four terms),
  writes the product back over that slice and leaves the slice `c = 0` alone, and undoes the view: position `n` of the
  result is element (n / 2^24, n % 2^23, n / 2^23 % 2) of the updated view (`unview_apply`). With band `b = 2 t + c` this
  is the specification: even bands unchanged, odd band `2 t + 1` the matrix row `t` applied to the four odd bands.
-/
import proofs.«169698_j22935125360825_1_alg».proof.Proof.ReadP
import proofs.«169698_j22935125360825_1_alg».proof.Proof.Relayout
import proofs.«169698_j22935125360825_1_alg».proof.Proof.ScatterRead
import proofs.«169698_j22935125360825_1_alg».proof.Proof.Spec
import Idealize.ShloMosaic.Lib.Pipeline.Value
import Idealize.ShloMosaic.Lib.ValueIdx
import Mathlib.Tactic.FinCases

noncomputable section

namespace Cert.Gate.Ref

open Idealize.ShloMosaic Idealize.ShloMosaic.ValueIdx Cert.ReferenceIdeal Cert.ReferenceIdeal.Gen Cert.ReferenceIdeal.ReadP

variable {F : FTy → Type} [FloatOps F]

theorem view_pos_lt (t : Fin 4) (r : Fin 8388608) (c : Fin 2) : t.val * 16777216 + c.val * 8388608 + r.val < 67108864 := by
  have := t.isLt; have := r.isLt; have := c.isLt; omega

/-- An element of the permuted box whose position is that of (t, r, c) in the [4, 2^23, 2] view holds the input at
    position `t * 2^24 + c * 2^23 + r`: the pair relation names its digits. -/
theorem permuted_apply (x0 : (⟨S1x67108864, .f32⟩ : BufTy).Contents (Elt F)) (j' : SB.Idx) (t : Fin 4) (r : Fin 8388608) (c : Fin 2)
    (hpos : (SB.rowMajor j').val = (t.val * 8388608 + r.val) * 2 + c.val) :
    val_main_v1 (F := F) x0 j' = x0 (xAt (t.val * 16777216 + c.val * 8388608 + r.val) (view_pos_lt t r c)) := by
  have ht := t.isLt; have hr := r.isLt; have hc := c.isLt
  rw [val_main_v1_apply]
  obtain ⟨T, c', M, hT, hc', hM, hA, hB⟩ := pair_rel (idx_main_v1 j') j' rfl rfl rfl (fun a => by fin_cases a <;> rfl)
  -- the digits of the position are those of (t, r, c): first the last digit, then the leading ones, then the rest
  rw [hpos] at hB
  have e1 : c' = c.val := by omega
  subst e1
  have e2 : T = t.val := by omega
  subst e2
  have e3 : M = r.val := by omega
  subst e3
  unfold val_main_v0
  refine shapeCast_apply x0 _ _ _ ?_
  rw [Shape.rowMajor_val_two, hA]
  show 0 * 67108864 + (t.val * 16777216 + c.val * 8388608 + r.val) = _
  rw [Nat.zero_mul, Nat.zero_add]

/-- Element (t, r, c) of the [4, 2^23, 2] view is the input at position `t * 2^24 + c * 2^23 + r`. -/
theorem view_apply (x0 : (⟨S1x67108864, .f32⟩ : BufTy).Contents (Elt F)) (t : Fin 4) (r : Fin 8388608) (c : Fin 2) :
    val_main_v2 (F := F) x0 (ix3 t r c) = x0 (xAt (t.val * 16777216 + c.val * 8388608 + r.val) (view_pos_lt t r c)) :=
  permuted_apply x0 (Shape.reshapeEquiv shapeCasts_S2x2x1x2x2x2x2x2x2x2x2x2x2x2x2x2x2x2x2x2x2x2x2x2x2x2x2_S4x8388608x2 (ix3 t r c)) t r c (by
    rw [Shape.rowMajor_reshapeEquiv, Shape.rowMajor_val_three]; rfl)

/-! ## The product, the update, and the way back -/

theorem xAt_congr {n n' : Nat} (h : n < 67108864) (h' : n' < 67108864) (e : n = n') : xAt n h = xAt n' h' := by
  subst e; rfl

/-- The product at (t, r): row `t` of the matrix against the slice `c = 1` of the view at place `r`. -/
theorem product_apply (x0 : (⟨S1x67108864, .f32⟩ : BufTy).Contents (Elt Ideal)) (x1 : (⟨S4x4, .f32⟩ : BufTy).Contents (Elt Ideal))
    (t : Fin 4) (r : Fin 8388608) :
    val_main_v5 (F := Ideal) x0 x1 (ix2 t r) = ∑ k : Fin 4, x1 (mAt t k) * val_main_v2 (F := Ideal) x0 (ix3 k r (1 : Fin 2)) := by
  rw [val_main_v5_apply]
  refine Finset.sum_congr rfl fun k _ => ?_
  rw [val_main_v4_apply, val_main_v3_apply]
  have el : lidx_main_v5 (ix2 t r) k = mAt t k := by
    funext a; apply Fin.ext
    match a with
    | ⟨0, _⟩ => rfl
    | ⟨1, _⟩ => rfl
  have er : idx_main_v3 (idx_main_v4 (ridx_main_v5 (ix2 t r) k)) = ix3 k r (1 : Fin 2) := by
    have hk := k.isLt; have hr := r.isLt
    funext a; apply Fin.ext
    match a with
    | ⟨0, _⟩ => show (k.val * 8388608 + r.val) / 8388608 = k.val; omega
    | ⟨1, _⟩ => show (k.val * 8388608 + r.val) / 1 % 8388608 = r.val; omega
    | ⟨2, _⟩ => rfl
  rw [el, er]

/-- The updated view: the product on the slice `c = 1`, the view itself on the slice `c = 0`. -/
theorem updated_apply (x0 : (⟨S1x67108864, .f32⟩ : BufTy).Contents (Elt Ideal)) (x1 : (⟨S4x4, .f32⟩ : BufTy).Contents (Elt Ideal))
    (t : Fin 4) (r : Fin 8388608) (c : Fin 2) :
    val_main_v7 (F := Ideal) x0 x1 (ix3 t r c)
      = if c.val = 1 then val_main_v5 (F := Ideal) x0 x1 (ix2 t r) else val_main_v2 (F := Ideal) x0 (ix3 t r c) := by
  unfold val_main_v7
  exact scatter_read _ _ t r c

theorem unview_t_lt (n : Fin 67108864) : n.val / 16777216 < 4 := by have := n.isLt; omega
theorem unview_r_lt (n : Fin 67108864) : n.val % 8388608 < 8388608 := by omega
theorem unview_c_lt (n : Fin 67108864) : n.val / 8388608 % 2 < 2 := by omega

/-- An element of the digit box at position `n` comes, through the permutation and the [4, 2^23, 2] view, from element
    (n / 2^24, n % 2^23, n / 2^23 % 2) of the updated view. -/
theorem unpermuted_apply (x0 : (⟨S1x67108864, .f32⟩ : BufTy).Contents (Elt F)) (x1 : (⟨S4x4, .f32⟩ : BufTy).Contents (Elt F))
    (j : SA.Idx) (n : Fin 67108864) (hpos : (SA.rowMajor j).val = n.val) :
    val_main_v9 (F := F) x0 x1 j
      = val_main_v7 (F := F) x0 x1 (ix3 ⟨n.val / 16777216, unview_t_lt n⟩ ⟨n.val % 8388608, unview_r_lt n⟩ ⟨n.val / 8388608 % 2, unview_c_lt n⟩) := by
  have hn := n.isLt
  rw [val_main_v9_apply]
  obtain ⟨T, c', M, hT, hc', hM, hA, hB⟩ := pair_rel j (idx_main_v9 j) rfl rfl rfl (fun a => by fin_cases a <;> rfl)
  rw [hpos] at hA
  have e1 : n.val / 16777216 = T := by omega
  have e2 : n.val % 8388608 = M := by omega
  have e3 : n.val / 8388608 % 2 = c' := by omega
  unfold val_main_v8
  refine shapeCast_apply _ _ _ _ ?_
  rw [Shape.rowMajor_val_three, hB]
  show (n.val / 16777216 * 8388608 + n.val % 8388608) * 2 + n.val / 8388608 % 2 = _
  rw [e1, e2, e3]

/-- Position `n` of the result is element (n / 2^24, n % 2^23, n / 2^23 % 2) of the updated view. -/
theorem unview_apply (x0 : (⟨S1x67108864, .f32⟩ : BufTy).Contents (Elt F)) (x1 : (⟨S4x4, .f32⟩ : BufTy).Contents (Elt F))
    (n : Fin 67108864) :
    val_main_v10 (F := F) x0 x1 (ix2 n (⟨0, Nat.one_pos⟩ : Fin 1))
      = val_main_v7 (F := F) x0 x1 (ix3 ⟨n.val / 16777216, unview_t_lt n⟩ ⟨n.val % 8388608, unview_r_lt n⟩ ⟨n.val / 8388608 % 2, unview_c_lt n⟩) :=
  unpermuted_apply x0 x1 (Shape.reshapeEquiv shapeCasts_S1x2x2x2x2x2x2x2x2x2x2x2x2x2x2x2x2x2x2x2x2x2x2x2x2x2x2_S67108864x1 (ix2 n (⟨0, Nat.one_pos⟩ : Fin 1))) n (by
    rw [Shape.rowMajor_reshapeEquiv, Shape.rowMajor_val_two]
    show n.val * 1 + 0 = n.val
    omega)

/-! ## The reference's result is the specification -/

/-- At every position the reference's result is the specification's: on an even band the view gives the input back at
    its own position; on an odd band `2 t + 1` the product's term `k` reads the input at `k * 2^24 + 2^23 + r`, which is
    odd band `2 k + 1` at place `r`. -/
theorem result_eq (x0 : (⟨S1x67108864, .f32⟩ : BufTy).Contents (Elt Ideal)) (x1 : (⟨S4x4, .f32⟩ : BufTy).Contents (Elt Ideal)) :
    val_main_v10 (F := Ideal) x0 x1 = G x0 x1 := by
  funext i
  obtain ⟨n, z, rfl⟩ : ∃ (n : Fin 67108864) (z : Fin 1), i = ix2 n z := ⟨i 0, i 1, eq_ix2 i⟩
  obtain rfl : z = ⟨0, Nat.one_pos⟩ := Subsingleton.elim _ _
  have hn := n.isLt
  rw [unview_apply, updated_apply]
  unfold G
  by_cases hc : n.val / 8388608 % 2 = 0
  · rw [if_pos (show (ix2 n (⟨0, Nat.one_pos⟩ : Fin 1) 0).val / 8388608 % 2 = 0 from hc),
      if_neg (show ¬ (n.val / 8388608 % 2 = 1) by omega), view_apply]
    exact congrArg x0 (xAt_congr _ _ (by show n.val / 16777216 * 16777216 + n.val / 8388608 % 2 * 8388608 + n.val % 8388608 = n.val; omega))
  · rw [if_neg (show ¬ ((ix2 n (⟨0, Nat.one_pos⟩ : Fin 1) 0).val / 8388608 % 2 = 0) from hc),
      if_pos (show n.val / 8388608 % 2 = 1 by omega), product_apply]
    refine Finset.sum_congr rfl fun k _ => ?_
    rw [view_apply]
    have hk := k.isLt
    exact congrArg (x1 (mAt ⟨n.val / 16777216, _⟩ k) * ·) (congrArg x0 (xAt_congr _ _ (by
      show k.val * 16777216 + 1 * 8388608 + n.val % 8388608 = (2 * k.val + 1) * 8388608 + n.val % 8388608
      omega)))

end Cert.Gate.Ref

end
-- ==== Proof.KernelBody.lean ====
/-
  The body of the gate kernel, one element at a time.

  At a grid point the kernel holds a block of 8 rows of 131072 numbers and the 4×4 matrix. It copies rows 0, 2, 4, 6
  of the block, and it writes into row 2t+1 (t = 0 … 3) the combination of the four odd rows 1, 3, 5, 7 with row t of
  the matrix, added from the left:
      ((mat[t,0] * row1 + mat[t,1] * row3) + mat[t,2] * row5) + mat[t,3] * row7.
  Here each stored row is read at one place q. A copied row is a [1, 131072] row viewed flat and viewed back; a mixed
  row is computed on flat rows and viewed as a [1, 131072] row at the end, and a matrix entry is a 1×1 slice of the
  matrix read at its one place and repeated along the row.
-/
import proofs.«169698_j22935125360825_1_alg».proof.Proof.Gen.KernelIdeal.Skeleton
import Idealize.ShloMosaic.Lib.ValueIdx
import Idealize.ShloMosaic.Lib.Pipeline.Value

noncomputable section

namespace Cert.Gate.Kernel

open Idealize.ShloMosaic Idealize.ShloMosaic.ValueIdx Cert.KernelIdeal Cert.KernelIdeal.Gen

/-! ## The copied rows -/

section Copy
variable {F : FTy → Type} [FloatOps F]

/-- A row viewed flat and viewed back as a row is the row: what rows 0, 2, 4, 6 receive. -/
theorem copy0 (v : Vec F S1x131072 .f32) : k0_pay7 v = v := by
  unfold k0_pay7; exact shapeCast_shapeCast v _ _
theorem copy2 (v : Vec F S1x131072 .f32) : k0_pay8 v = v := by
  unfold k0_pay8; exact shapeCast_shapeCast v _ _
theorem copy4 (v : Vec F S1x131072 .f32) : k0_pay9 v = v := by
  unfold k0_pay9; exact shapeCast_shapeCast v _ _
theorem copy6 (v : Vec F S1x131072 .f32) : k0_pay10 v = v := by
  unfold k0_pay10; exact shapeCast_shapeCast v _ _

end Copy

/-! ## Layout, at a place -/

/-- A row viewed flat, at place q, is the row at (0, q). -/
theorem flat_apply (v : FVec Ideal S1x131072 .f32) (h : S1x131072.ShapeCasts S131072) (q : Fin 131072) :
    shapeCast S131072 v h (ix1 q) = v (ix2 (0 : Fin 1) q) :=
  shapeCast_apply v h (ix1 q) (ix2 (0 : Fin 1) q) (by
    rw [Shape.rowMajor_val_two, Shape.rowMajor_val_one]
    show (0 : ℕ) * 131072 + q.val = q.val
    omega)

/-- A flat row viewed as a [1, 131072] row, at (0, q), is the flat row at q. -/
theorem unflat_apply (v : FVec Ideal S131072 .f32) (h : S131072.ShapeCasts S1x131072) (q : Fin 131072) :
    shapeCast S1x131072 v h (ix2 (0 : Fin 1) q) = v (ix1 q) :=
  shapeCast_apply v h (ix2 (0 : Fin 1) q) (ix1 q) (by
    rw [Shape.rowMajor_val_two, Shape.rowMajor_val_one]
    show q.val = (0 : ℕ) * 131072 + q.val
    omega)

/-- The 1×1 slice of the matrix at offsets (t, k), read at its one place, is the entry (t, k). -/
theorem entry_apply (mat : FVec Ideal S4x4 .f32) (off : Fin 2 → ℕ) (t k : Fin 4) (h0 : off 0 = t.val) (h1 : off 1 = k.val)
    (h : S4x4.Slices off S1x1) (h' : ∀ a, (![0, 0] : Fin 2 → ℕ) a < S1x1.size a) :
    extractAt ![0, 0] (extractStridedSlice S1x1 off mat h) h' = mat (ix2 t k) := by
  unfold extractAt extractStridedSlice
  refine congrArg mat (funext fun a => Fin.ext ?_)
  match a with
  | ⟨0, _⟩ => show off 0 + 0 = t.val; omega
  | ⟨1, _⟩ => show off 1 + 0 = k.val; omega

/-- One term of a mixed row at place q: the matrix entry (t, k), repeated along the row, times a flat odd row. -/
theorem term_apply (mat : FVec Ideal S4x4 .f32) (off : Fin 2 → ℕ) (t k : Fin 4) (h0 : off 0 = t.val) (h1 : off 1 = k.val)
    (h : S4x4.Slices off S1x1) (h' : ∀ a, (![0, 0] : Fin 2 → ℕ) a < S1x1.size a)
    (r : FVec Ideal S1x131072 .f32) (hc : S1x131072.ShapeCasts S131072) (q : Fin 131072) :
    mulf (broadcast S131072 (extractAt ![0, 0] (extractStridedSlice S1x1 off mat h) h')) (shapeCast S131072 r hc) (ix1 q)
      = mat (ix2 t k) * r (ix2 (0 : Fin 1) q) := by
  rw [mulf_apply, broadcast_apply, entry_apply mat off t k h0 h1, flat_apply]

/-! ## The mixed rows -/

/-- Row 1 of the stored block at place q: row 0 of the matrix applied to the odd rows. -/
theorem mix0_apply (mat : FVec Ideal S4x4 .f32) (r1 r3 r5 r7 : FVec Ideal S1x131072 .f32) (q : Fin 131072) :
    k0_pay11 (F := Ideal) mat (k0_pay3 r1) (k0_pay4 r3) (k0_pay5 r5) (k0_pay6 r7) (ix2 (0 : Fin 1) q)
      = mat (ix2 0 0) * r1 (ix2 (0 : Fin 1) q) + mat (ix2 0 1) * r3 (ix2 (0 : Fin 1) q)
        + mat (ix2 0 2) * r5 (ix2 (0 : Fin 1) q) + mat (ix2 0 3) * r7 (ix2 (0 : Fin 1) q) := by
  unfold k0_pay11 k0_pay3 k0_pay4 k0_pay5 k0_pay6
  refine (unflat_apply _ _ q).trans ?_
  rw [addf_apply, addf_apply, addf_apply]
  exact congrArg₂ (· + ·) (congrArg₂ (· + ·) (congrArg₂ (· + ·)
    (term_apply mat _ 0 0 rfl rfl _ _ r1 _ q) (term_apply mat _ 0 1 rfl rfl _ _ r3 _ q))
    (term_apply mat _ 0 2 rfl rfl _ _ r5 _ q)) (term_apply mat _ 0 3 rfl rfl _ _ r7 _ q)

/-- Row 3 of the stored block at place q: row 1 of the matrix applied to the odd rows. -/
theorem mix1_apply (mat : FVec Ideal S4x4 .f32) (r1 r3 r5 r7 : FVec Ideal S1x131072 .f32) (q : Fin 131072) :
    k0_pay12 (F := Ideal) mat (k0_pay3 r1) (k0_pay4 r3) (k0_pay5 r5) (k0_pay6 r7) (ix2 (0 : Fin 1) q)
      = mat (ix2 1 0) * r1 (ix2 (0 : Fin 1) q) + mat (ix2 1 1) * r3 (ix2 (0 : Fin 1) q)
        + mat (ix2 1 2) * r5 (ix2 (0 : Fin 1) q) + mat (ix2 1 3) * r7 (ix2 (0 : Fin 1) q) := by
  unfold k0_pay12 k0_pay3 k0_pay4 k0_pay5 k0_pay6
  refine (unflat_apply _ _ q).trans ?_
  rw [addf_apply, addf_apply, addf_apply]
  exact congrArg₂ (· + ·) (congrArg₂ (· + ·) (congrArg₂ (· + ·)
    (term_apply mat _ 1 0 rfl rfl _ _ r1 _ q) (term_apply mat _ 1 1 rfl rfl _ _ r3 _ q))
    (term_apply mat _ 1 2 rfl rfl _ _ r5 _ q)) (term_apply mat _ 1 3 rfl rfl _ _ r7 _ q)

/-- Row 5 of the stored block at place q: row 2 of the matrix applied to the odd rows. Its first two terms are
    added in one part of the body, the last two in the next. -/
theorem mix2_apply (mat : FVec Ideal S4x4 .f32) (r1 r3 r5 r7 : FVec Ideal S1x131072 .f32) (q : Fin 131072) :
    k0_pay1 (F := Ideal) mat (k0_pay5 r5) (k0_pay6 r7) (k0_pay13 mat (k0_pay3 r1) (k0_pay4 r3)) (k0_pay14 mat) (ix2 (0 : Fin 1) q)
      = mat (ix2 2 0) * r1 (ix2 (0 : Fin 1) q) + mat (ix2 2 1) * r3 (ix2 (0 : Fin 1) q)
        + mat (ix2 2 2) * r5 (ix2 (0 : Fin 1) q) + mat (ix2 2 3) * r7 (ix2 (0 : Fin 1) q) := by
  unfold k0_pay1 k0_pay13 k0_pay14 k0_pay3 k0_pay4 k0_pay5 k0_pay6
  refine (unflat_apply _ _ q).trans ?_
  rw [addf_apply, addf_apply, addf_apply]
  exact congrArg₂ (· + ·) (congrArg₂ (· + ·) (congrArg₂ (· + ·)
    (term_apply mat _ 2 0 rfl rfl _ _ r1 _ q) (term_apply mat _ 2 1 rfl rfl _ _ r3 _ q))
    (term_apply mat _ 2 2 rfl rfl _ _ r5 _ q)) (term_apply mat _ 2 3 rfl rfl _ _ r7 _ q)

/-- Row 7 of the stored block at place q: row 3 of the matrix applied to the odd rows. -/
theorem mix3_apply (mat : FVec Ideal S4x4 .f32) (r1 r3 r5 r7 : FVec Ideal S1x131072 .f32) (q : Fin 131072) :
    k0_pay2 (F := Ideal) mat (k0_pay3 r1) (k0_pay4 r3) (k0_pay5 r5) (k0_pay6 r7) (ix2 (0 : Fin 1) q)
      = mat (ix2 3 0) * r1 (ix2 (0 : Fin 1) q) + mat (ix2 3 1) * r3 (ix2 (0 : Fin 1) q)
        + mat (ix2 3 2) * r5 (ix2 (0 : Fin 1) q) + mat (ix2 3 3) * r7 (ix2 (0 : Fin 1) q) := by
  unfold k0_pay2 k0_pay3 k0_pay4 k0_pay5 k0_pay6
  refine (unflat_apply _ _ q).trans ?_
  rw [addf_apply, addf_apply, addf_apply]
  exact congrArg₂ (· + ·) (congrArg₂ (· + ·) (congrArg₂ (· + ·)
    (term_apply mat _ 3 0 rfl rfl _ _ r1 _ q) (term_apply mat _ 3 1 rfl rfl _ _ r3 _ q))
    (term_apply mat _ 3 2 rfl rfl _ _ r5 _ q)) (term_apply mat _ 3 3 rfl rfl _ _ r7 _ q)

/-! ## The whole block, and the whole array, as one function

An array of 8 rows of any length n with its odd rows mixed: row b is kept when b is even, and row 2t+1 becomes the
sum over k of mat[t, k] times row 2k+1, place by place. The kernel's block (n = 131072) and the whole array
(n = 2^23) are both of this form. -/

/-- Rows 1, 3, 5, 7 mixed by the matrix, rows 0, 2, 4, 6 kept. -/
def mixRows {n : ℕ} (a : FVec Ideal ⟨2, ![8, n]⟩ .f32) (mat : FVec Ideal S4x4 .f32) : FVec Ideal ⟨2, ![8, n]⟩ .f32 := fun j =>
  if (j 0).val % 2 = 0 then a j
  else ∑ k : Fin 4, mat (ix2 (⟨(j 0).val / 2, by have := idx2_lt0 j; omega⟩ : Fin 4) k)
        * a (ix2 (⟨2 * k.val + 1, by have := k.isLt; omega⟩ : Fin 8) (⟨(j 1).val, idx2_lt1 j⟩ : Fin n))

/-- An even row is kept. -/
theorem mixRows_even {n : ℕ} (a : FVec Ideal ⟨2, ![8, n]⟩ .f32) (mat : FVec Ideal S4x4 .f32) (b : Fin 8) (q : Fin n)
    (hb : b.val % 2 = 0) : mixRows a mat (ix2 b q) = a (ix2 b q) := by
  show (if b.val % 2 = 0 then a (ix2 b q) else _) = _
  rw [if_pos hb]

/-- Row 2t+1 is row t of the matrix applied to the odd rows, added from the left. -/
theorem mixRows_odd {n : ℕ} (a : FVec Ideal ⟨2, ![8, n]⟩ .f32) (mat : FVec Ideal S4x4 .f32) (t : Fin 4) (b : Fin 8) (q : Fin n)
    (hb : b.val = 2 * t.val + 1) :
    mixRows a mat (ix2 b q) = mat (ix2 t 0) * a (ix2 1 q) + mat (ix2 t 1) * a (ix2 3 q)
      + mat (ix2 t 2) * a (ix2 5 q) + mat (ix2 t 3) * a (ix2 7 q) := by
  have hb' : ¬ b.val % 2 = 0 := by omega
  have ht : (⟨b.val / 2, by have := b.isLt; omega⟩ : Fin 4) = t := Fin.ext (by show b.val / 2 = t.val; omega)
  show (if b.val % 2 = 0 then a (ix2 b q)
    else ∑ k : Fin 4, mat (ix2 (⟨b.val / 2, by have := b.isLt; omega⟩ : Fin 4) k)
        * a (ix2 (⟨2 * k.val + 1, by have := k.isLt; omega⟩ : Fin 8) (⟨q.val, q.isLt⟩ : Fin n))) = _
  rw [if_neg hb', Fin.sum_univ_four, ht]
  rfl

end Cert.Gate.Kernel

end
-- ==== Proof.KernelBlock.lean ====
/-
  What the gate kernel's body leaves in its output block, as one function of the input block and the matrix.

  The body stores 8 whole rows: rows 0, 2, 4, 6 are rows 0, 2, 4, 6 of the input block, and row 2t+1 is row t of the
  matrix applied to the input block's rows 1, 3, 5, 7. Read through the stored rows, the output block is the input
  block with its odd rows mixed.
-/
import proofs.«169698_j22935125360825_1_alg».proof.Proof.Gen.KernelIdeal.Frame
import proofs.«169698_j22935125360825_1_alg».proof.Proof.KernelBody

noncomputable section

namespace Cert.Gate.Kernel

open Idealize.ShloMosaic Idealize.ShloMosaic.ValueIdx Cert.KernelIdeal Cert.KernelIdeal.Gen

theorem zeros2 : (![0, 0] : Fin 2 → Nat) = fun _ => 0 := funext fun a => by fin_cases a <;> rfl

/-- A load of one whole row of the block, row b, read at place q, is the block at (b, q). -/
theorem ldRow_apply (x0 : Vec Ideal S8x131072 .f32) (b : Fin 8) (off : Fin 2 → ℕ) (h0 : off 0 = b.val) (h1 : off 1 = 0)
    (inb : ∀ a, off a + S1x131072.size a ≤ S8x131072.size a) (q : Fin 131072) :
    View.ld (Val := Elt Ideal) (e' := .f32) x0 (Rect.unit (s := S8x131072) off S1x131072.size inb) (ix2 (0 : Fin 1) q) = x0 (ix2 b q) := by
  show x0 _ = x0 _
  refine congrArg x0 (funext fun a => Fin.ext ?_)
  match a with
  | ⟨0, _⟩ => show off 0 + 1 * 0 = b.val; omega
  | ⟨1, _⟩ => show off 1 + 1 * q.val = q.val; omega

/-- Place q of stored row b is the block's index (b, q). -/
theorem embRow (b : Fin 8) (off : Fin 2 → ℕ) (h0 : off 0 = b.val) (h1 : off 1 = 0)
    (inb : ∀ a, off a + S1x131072.size a ≤ S8x131072.size a) (q : Fin 131072) :
    (Rect.unit (s := S8x131072) off S1x131072.size inb).emb (ix2 (0 : Fin 1) q) = ix2 b q := by
  funext a
  refine Fin.ext ?_
  match a with
  | ⟨0, _⟩ => show off 0 + 1 * 0 = b.val; omega
  | ⟨1, _⟩ => show off 1 + 1 * q.val = q.val; omega

/-- Every index of a [1, 131072] row is (0, q). -/
theorem row_idx (x : S1x131072.Idx) : ∃ q : Fin 131072, x = ix2 (0 : Fin 1) q :=
  ⟨x 1, (eq_ix2 x).trans (congrArg (fun z : Fin 1 => ix2 z (x 1)) (Subsingleton.elim _ _))⟩

/-- A copied row agrees with the mixed block on an even row. -/
theorem piece_even (x0 : Vec Ideal S8x131072 .f32) (x1 : Vec Ideal S4x4 .f32) (b : Fin 8) (hb : b.val % 2 = 0)
    (off : Fin 2 → ℕ) (h0 : off 0 = b.val) (h1 : off 1 = 0) (inb : ∀ a, off a + S1x131072.size a ≤ S8x131072.size a)
    (x : S1x131072.Idx) :
    View.ld (Val := Elt Ideal) (e' := .f32) x0 (Rect.unit (s := S8x131072) off S1x131072.size inb) x
      = mixRows x0 x1 ((Rect.unit (s := S8x131072) off S1x131072.size inb).emb x) := by
  obtain ⟨q, rfl⟩ := row_idx x
  rw [embRow b off h0 h1, mixRows_even x0 x1 b q hb, ldRow_apply x0 b off h0 h1]

/-- Row t of the matrix applied to the loaded odd rows agrees with the mixed block on row 2t+1. -/
theorem piece_odd (x0 : Vec Ideal S8x131072 .f32) (x1 : Vec Ideal S4x4 .f32) (t : Fin 4) (b : Fin 8) (hb : b.val = 2 * t.val + 1)
    (off : Fin 2 → ℕ) (h0 : off 0 = b.val) (h1 : off 1 = 0) (inb : ∀ a, off a + S1x131072.size a ≤ S8x131072.size a)
    (pay : FVec Ideal S1x131072 .f32)
    (hpay : ∀ q : Fin 131072, pay (ix2 (0 : Fin 1) q)
      = x1 (ix2 t 0) * x0 (ix2 1 q) + x1 (ix2 t 1) * x0 (ix2 3 q) + x1 (ix2 t 2) * x0 (ix2 5 q) + x1 (ix2 t 3) * x0 (ix2 7 q))
    (x : S1x131072.Idx) :
    pay x = mixRows x0 x1 ((Rect.unit (s := S8x131072) off S1x131072.size inb).emb x) := by
  obtain ⟨q, rfl⟩ := row_idx x
  rw [embRow b off h0 h1, mixRows_odd x0 x1 t b q hb, hpay]

/-- The four loaded odd rows, at place q, are the block's rows 1, 3, 5, 7 there. -/
theorem odd_rows (x0 : Vec Ideal S8x131072 .f32) (x1 : Vec Ideal S4x4 .f32) (t : Fin 4) (q : Fin 131072) :
    x1 (ix2 t 0) * View.ld (Val := Elt Ideal) (e' := .f32) x0 r0_2 (ix2 (0 : Fin 1) q)
      + x1 (ix2 t 1) * View.ld (Val := Elt Ideal) (e' := .f32) x0 r0_4 (ix2 (0 : Fin 1) q)
      + x1 (ix2 t 2) * View.ld (Val := Elt Ideal) (e' := .f32) x0 r0_6 (ix2 (0 : Fin 1) q)
      + x1 (ix2 t 3) * View.ld (Val := Elt Ideal) (e' := .f32) x0 r0_8 (ix2 (0 : Fin 1) q)
    = x1 (ix2 t 0) * x0 (ix2 1 q) + x1 (ix2 t 1) * x0 (ix2 3 q) + x1 (ix2 t 2) * x0 (ix2 5 q) + x1 (ix2 t 3) * x0 (ix2 7 q) :=
  congrArg₂ (· + ·) (congrArg₂ (· + ·) (congrArg₂ (· + ·)
    (congrArg (x1 (ix2 t 0) * ·) (ldRow_apply x0 1 ![1, 0] rfl rfl Facts₀.inb_S8x131072_S1x131072_1_0 q))
    (congrArg (x1 (ix2 t 1) * ·) (ldRow_apply x0 3 ![3, 0] rfl rfl Facts₀.inb_S8x131072_S1x131072_3_0 q)))
    (congrArg (x1 (ix2 t 2) * ·) (ldRow_apply x0 5 ![5, 0] rfl rfl Facts₀.inb_S8x131072_S1x131072_5_0 q)))
    (congrArg (x1 (ix2 t 3) * ·) (ldRow_apply x0 7 ![7, 0] rfl rfl Facts₀.inb_S8x131072_S1x131072_7_0 q))

/-- THE OUTPUT BLOCK after the body is the input block with its odd rows mixed by the matrix. -/
theorem out_eq (x0 : Vec Ideal S8x131072 .f32) (x1 : Vec Ideal S4x4 .f32) : out0_2 (F := Ideal) x0 x1 = mixRows x0 x1 := by
  funext y
  unfold out0_2
  rw [View.ld_unit_zero (Val := Elt Ideal) (S := S4x4) zeros2]
  refine View.canon_apply_of_pieces (Val := Elt Ideal) (e := .f32) (mixRows x0 x1) _ ?_ y (cover0_2 _ _ _ _ _ _ _ _ y)
  intro p hp
  simp only [List.mem_cons, List.mem_nil_iff, or_false] at hp
  rcases hp with rfl | rfl | rfl | rfl | rfl | rfl | rfl | rfl
  · refine piece_odd x0 x1 3 7 rfl ![7, 0] rfl rfl Facts₀.inb_S8x131072_S1x131072_7_0 _ fun q => ?_
    exact (mix3_apply x1 _ _ _ _ q).trans (odd_rows x0 x1 3 q)
  · refine piece_odd x0 x1 2 5 rfl ![5, 0] rfl rfl Facts₀.inb_S8x131072_S1x131072_5_0 _ fun q => ?_
    exact (mix2_apply x1 _ _ _ _ q).trans (odd_rows x0 x1 2 q)
  · refine piece_odd x0 x1 1 3 rfl ![3, 0] rfl rfl Facts₀.inb_S8x131072_S1x131072_3_0 _ fun q => ?_
    exact (mix1_apply x1 _ _ _ _ q).trans (odd_rows x0 x1 1 q)
  · refine piece_odd x0 x1 0 1 rfl ![1, 0] rfl rfl Facts₀.inb_S8x131072_S1x131072_1_0 _ fun q => ?_
    exact (mix0_apply x1 _ _ _ _ q).trans (odd_rows x0 x1 0 q)
  · intro x; rw [copy6]; exact piece_even x0 x1 6 rfl ![6, 0] rfl rfl Facts₀.inb_S8x131072_S1x131072_6_0 x
  · intro x; rw [copy4]; exact piece_even x0 x1 4 rfl ![4, 0] rfl rfl Facts₀.inb_S8x131072_S1x131072_4_0 x
  · intro x; rw [copy2]; exact piece_even x0 x1 2 rfl ![2, 0] rfl rfl Facts₀.inb_S8x131072_S1x131072_2_0 x
  · intro x; rw [copy0]; exact piece_even x0 x1 0 rfl ![0, 0] rfl rfl Facts₀.inb_S8x131072_S1x131072_0_0 x

end Cert.Gate.Kernel

end
-- ==== Proof.KernelValue.lean ====
/-
  The gate kernel's program, read: what it leaves in its result.

  The program views the input row of 2^26 numbers as 8 bands of 2^23 (an 8 × 2^23 array), runs the kernel over 64
  column blocks of 131072 places each, and views the 8 × 2^23 result as a column of 2^26 numbers. At every grid point
  the body leaves its input block with the odd rows mixed by the matrix, which is the block of ONE function of the
  whole array: the array with its odd rows mixed. The 64 blocks tile the array (column r lies in block r / 131072), so
  the result array is the input array with its odd rows mixed; read as a column, position n is band n / 2^23 at place
  n % 2^23, which is the specification.
-/
import proofs.«169698_j22935125360825_1_alg».proof.Defs
import proofs.«169698_j22935125360825_1_alg».proof.Proof.Gen.KernelIdeal.Frame
import proofs.«169698_j22935125360825_1_alg».proof.Proof.Spec
import proofs.«169698_j22935125360825_1_alg».proof.Proof.KernelBlock
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.Gate.Kernel

open Idealize.ShloMosaic Idealize.ShloMosaic.TcCoe Idealize.SL.Sem Cert.KernelIdeal Cert.KernelIdeal.Gen
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The array the kernel reads -/

/-- The array the kernel's first window stages is the input row viewed as 8 bands. -/
theorem bands_eq (c : Dev nD) : (V m c main_v0 : S8x8388608.Idx → EReal)
    = shapeCast S8x8388608 (m ((c.tc : Thread nD τ).loc main_arg0)) Facts₀.shapeCasts_S1x67108864_S8x8388608 := by
  show StableHlo.after hostOps0 (fun b => m (c, b)) (Proc.devRef .tc main_v0) = _
  after_results
  rfl

/-- Band b, place r of that array is position b * 2^23 + r of the input row. -/
theorem band_apply (c : Dev nD) (b : Fin 8) (r : Fin 8388608) :
    (V m c main_v0 : S8x8388608.Idx → EReal) (ix2 b r)
      = (m ((c.tc : Thread nD τ).loc main_arg0) : S1x67108864.Idx → EReal)
          (ix2 (0 : Fin 1) (⟨b.val * 8388608 + r.val, by have := b.isLt; have := r.isLt; omega⟩ : Fin 67108864)) := by
  rw [bands_eq]
  refine shapeCast_apply (s := S1x67108864) (t := S8x8388608) _ _ (ix2 b r)
    (ix2 (0 : Fin 1) (⟨b.val * 8388608 + r.val, by have := b.isLt; have := r.isLt; omega⟩ : Fin 67108864)) ?_
  show ((⟨2, ![1, 67108864]⟩ : Shape).rowMajor _).val = ((⟨2, ![8, 8388608]⟩ : Shape).rowMajor _).val
  rw [Shape.rowMajor_val_two, Shape.rowMajor_val_two]
  show 0 * 67108864 + (b.val * 8388608 + r.val) = b.val * 8388608 + r.val
  omega

/-! ## What a grid point writes back -/

/-- The index maps over the grid: at point t the input block and the output block are column block t of
    their arrays, and the matrix is staged whole. -/
theorem index_at : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- A place of column block p, as a place of the whole array. -/
theorem blk_lt {p : ℕ} (hp : p < 64) (q : Fin 131072) : p * 131072 + q.val < 8388608 := by
  have := q.isLt; omega

/-- Mixing the odd rows commutes with cutting out column block p: a block x0 of the array A (its places p * 131072 …)
    mixed is the mixed array read at the block's places. -/
theorem mixRows_block (A : FVec Ideal S8x8388608 .f32) (M : FVec Ideal S4x4 .f32)
    (x0 : FVec Ideal S8x131072 .f32) (x1 : FVec Ideal S4x4 .f32) (p : ℕ) (hp : p < 64)
    (h0 : ∀ (b : Fin 8) (q : Fin 131072), x0 (ix2 b q)
      = A (ix2 b (⟨p * 131072 + q.val, blk_lt hp q⟩ : Fin 8388608)))
    (h1 : ∀ t k : Fin 4, x1 (ix2 t k) = M (ix2 t k))
    (y : S8x131072.Idx) (i : S8x8388608.Idx) (hi0 : (i 0).val = (y 0).val) (hi1 : (i 1).val = p * 131072 + (y 1).val) :
    mixRows x0 x1 y = mixRows A M i := by
  obtain ⟨b, q, rfl⟩ : ∃ (b : Fin 8) (q : Fin 131072), y = ix2 b q := ⟨y 0, y 1, eq_ix2 y⟩
  obtain rfl : i = ix2 b (⟨p * 131072 + q.val, blk_lt hp q⟩ : Fin 8388608) := by
    funext a; refine Fin.ext ?_
    match a with
    | ⟨0, _⟩ => exact hi0
    | ⟨1, _⟩ => exact hi1
  by_cases hb : b.val % 2 = 0
  · rw [mixRows_even x0 x1 b q hb, mixRows_even A M b _ hb, h0]
  · obtain ⟨t, ht⟩ : ∃ t : Fin 4, b.val = 2 * t.val + 1 :=
      ⟨⟨b.val / 2, by have := b.isLt; omega⟩, by show b.val = 2 * (b.val / 2) + 1; omega⟩
    rw [mixRows_odd x0 x1 t b q ht, mixRows_odd A M t b _ ht, h0, h0, h0, h0, h1, h1, h1, h1]

/-- WHAT POINT t WRITES BACK is block t of the whole array with its odd rows mixed. -/
theorem writeback_eq (c : Dev nD) (t : Fin cfg0.N) :
    (dats m 0 c).flushed 2 t
      = ((cfg0.win 2).blk t).view.read (Elt Ideal) (mixRows (n := 8388608) (V m c main_v0) (V m c main_arg1)) := by
  show (cfg0.win 2).cut (grid0.coords t) ((dats m 0 c).after 2 t) = _
  rw [after0_2, out_eq]
  obtain ⟨e00, e01, e10, e11, e20, e21⟩ := index_at t
  have hN : cfg0.N = 64 := N_0
  have ht : t.val < 64 := lt_of_lt_of_eq t.isLt hN
  funext y
  show mixRows (n := 131072) (iblk m c 0 t) (iblk m c 1 t) y
    = mixRows (n := 8388608) (V m c main_v0) (V m c main_arg1) (((cfg0.win 2).blk t).view.emb y)
  refine mixRows_block _ _ _ _ t.val ht (fun b q => ?_) (fun t' k => ?_) y _ ?_ ?_
  · have h : ((cfg0.win 0).blk t).view.emb (ix2 b q)
        = ix2 b (⟨t.val * 131072 + q.val, blk_lt ht q⟩ : Fin 8388608) := by
      funext a; apply Fin.ext
      match a with
      | ⟨0, _⟩ => show win0_0.index t (0 : Fin 2) * 8 + 1 * b.val = b.val; omega
      | ⟨1, _⟩ => show win0_0.index t (1 : Fin 2) * 131072 + 1 * q.val = t.val * 131072 + q.val; omega
    show V m c main_v0 (((cfg0.win 0).blk t).view.emb (ix2 b q)) = V m c main_v0 _
    rw [h]
  · have h : ((cfg0.win 1).blk t).view.emb (ix2 t' k) = ix2 t' k := by
      funext a; apply Fin.ext
      match a with
      | ⟨0, _⟩ => show win0_1.index t (0 : Fin 2) * 4 + 1 * t'.val = t'.val; omega
      | ⟨1, _⟩ => show win0_1.index t (1 : Fin 2) * 4 + 1 * k.val = k.val; omega
    show V m c main_arg1 (((cfg0.win 1).blk t).view.emb (ix2 t' k)) = V m c main_arg1 _
    rw [h]
  · show win0_2.index t (0 : Fin 2) * 8 + 1 * (y 0).val = (y 0).val; omega
  · show win0_2.index t (1 : Fin 2) * 131072 + 1 * (y 1).val = t.val * 131072 + (y 1).val; omega

/-! ## The result array after the run -/

/-- An index of the array is in point t's block iff each coordinate is in the block's range on its axis. -/
theorem mem_block_iff (t : Fin cfg0.N) (i : S8x8388608.Idx) :
    i ∈ ((cfg0.win 2).blk t).view.set ↔ ∀ a : Fin 2, win0_2.index t a * S8x131072.size a ≤ (i a).val
      ∧ (i a).val < win0_2.index t a * S8x131072.size a + S8x131072.size a := by
  show i ∈ ((View.whole main_v1).slice (win0_2.rect t)).set ↔ _
  rw [View.set_slice_whole, Rect.mem_set_unit]
  exact Iff.rfl

/-- The 64 blocks tile the array: column r lies in the block of point r / 131072. -/
theorem blocks_tile (i : S8x8388608.Idx) :
    ∃ t : Fin cfg0.N, (cfg0.win 2).flush t = true ∧ i ∈ ((cfg0.win 2).blk t).view.set := by
  have hN : cfg0.N = 64 := N_0
  have hi0 : (i 0).val < 8 := (i 0).isLt
  have hi1 : (i 1).val < 8388608 := (i 1).isLt
  obtain ⟨t, ht⟩ : ∃ t : Fin cfg0.N, t.val = (i 1).val / 131072 :=
    ⟨⟨(i 1).val / 131072, lt_of_lt_of_eq (by omega : (i 1).val / 131072 < 64) hN.symm⟩, rfl⟩
  obtain ⟨-, -, -, -, e20, e21⟩ := index_at t
  refine ⟨t, flush0_2 t, ?_⟩
  rw [mem_block_iff]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 131072 ≤ (i 1).val ∧ (i 1).val < win0_2.index t (1 : Fin 2) * 131072 + 131072; omega

/-- THE RESULT ARRAY after the run is the array the kernel read with its odd rows mixed. -/
theorem result_array (c : Dev nD) :
    (dats m 0 c).arrAt 2 cfg0.N = mixRows (n := 8388608) (V m c main_v0) (V m c main_arg1) :=
  (dats m 0 c).arrAt_eq_of_cover 2 _ (fun t _ => writeback_eq m c t) blocks_tile

/-! ## The program's result -/

/-- The column the program returns is the result array viewed as 2^26 × 1. -/
theorem column_of_result (c : Dev nD) : Pipeline.afterTail₀ cfgs (dats m) 0 (V0 m) [hostOps1] c main_v2
    = shapeCast S67108864x1 (mixRows (n := 8388608) (V m c main_v0) (V m c main_arg1))
        Facts₀.shapeCasts_S8x8388608_S67108864x1 := by
  have hw : Pipeline.withArrays (cfgs 0).spec c (V0 m c) (fun w => (dats m 0 c).arrAt w (cfgs 0).N) (Proc.devRef .tc main_v1)
      = mixRows (n := 8388608) (V m c main_v0) (V m c main_arg1) :=
    (Pipeline.withArrays_arr spec0 launch0.win.arr_inj c _ _ 2).trans (result_array m c)
  unfold Pipeline.afterTail₀
  show StableHlo.after hostOps1 _ (Proc.devRef .tc main_v2) = _
  after_results
  rw [hw]
  rfl

/-- The mixed 8-band array, viewed as a column, is the specification: position n is band n / 2^23 at place n % 2^23;
    an even band is the input there, and band 2t+1 is row t = n / 2^24 of the matrix applied to the odd bands. -/
theorem column_eq (x : FVec Ideal S1x67108864 .f32) (mat : FVec Ideal S4x4 .f32) (A : FVec Ideal S8x8388608 .f32)
    (hA : ∀ (b : Fin 8) (r : Fin 8388608), A (ix2 b r)
      = x (ix2 (0 : Fin 1) (⟨b.val * 8388608 + r.val, by have := b.isLt; have := r.isLt; omega⟩ : Fin 67108864)))
    (h' : S8x8388608.ShapeCasts S67108864x1) :
    shapeCast S67108864x1 (mixRows A mat) h' = Cert.Gate.G x mat := by
  funext i
  obtain ⟨n, z, rfl⟩ : ∃ (n : Fin 67108864) (z : Fin 1), i = ix2 n z := ⟨i 0, i 1, eq_ix2 i⟩
  have hn := n.isLt
  have hx : ∀ (a b : ℕ) (ha : a < 67108864) (hb : b < 67108864), a = b →
      x (ix2 (0 : Fin 1) (⟨a, ha⟩ : Fin 67108864)) = x (Cert.Gate.xAt b hb) := by
    intro a b ha hb e; subst e; rfl
  refine (shapeCast_apply (mixRows A mat) h' (ix2 n z)
    (ix2 (⟨n.val / 8388608, by omega⟩ : Fin 8) (⟨n.val % 8388608, by omega⟩ : Fin 8388608)) ?_).trans ?_
  · rw [Shape.rowMajor_val_two, Shape.rowMajor_val_two]
    show n.val / 8388608 * 8388608 + n.val % 8388608 = n.val * 1 + z.val
    have := z.isLt; omega
  · by_cases hb : n.val / 8388608 % 2 = 0
    · rw [mixRows_even A mat _ _ hb, hA]
      show _ = if n.val / 8388608 % 2 = 0 then x (Cert.Gate.xAt n.val n.isLt) else _
      rw [if_pos hb]
      exact hx _ _ _ _ (by show n.val / 8388608 * 8388608 + n.val % 8388608 = n.val; omega)
    · have ht : n.val / 8388608 = 2 * (n.val / 16777216) + 1 := by omega
      rw [mixRows_odd A mat (⟨n.val / 16777216, by omega⟩ : Fin 4) _ _ ht, hA, hA, hA, hA]
      show _ = if n.val / 8388608 % 2 = 0 then _
        else ∑ k : Fin 4, mat (Cert.Gate.mAt ⟨n.val / 16777216, Cert.Gate.band_lt n.isLt⟩ k)
          * x (Cert.Gate.xAt ((2 * k.val + 1) * 8388608 + n.val % 8388608) (Cert.Gate.odd_lt k n.val))
      rw [if_neg hb, Fin.sum_univ_four]
      exact congrArg₂ (· + ·) (congrArg₂ (· + ·) (congrArg₂ (· + ·)
        (congrArg (mat (ix2 _ 0) * ·) (hx _ _ _ _ rfl)) (congrArg (mat (ix2 _ 1) * ·) (hx _ _ _ _ rfl)))
        (congrArg (mat (ix2 _ 2) * ·) (hx _ _ _ _ rfl))) (congrArg (mat (ix2 _ 3) * ·) (hx _ _ _ _ rfl))

/-- THE RUN: every weakly fair execution of the program ends with the result column at the specification of the two
    arguments, and the arguments as they were. -/
theorem run : θ_run (defs (F := Ideal)) (onTc (τ := τ) (main (F := Ideal))) ⟨m, fun _ => 0, ρ⟩ fun r => ∀ c : Dev nD,
      r.2.mem ((c.tc : Thread nD τ).loc main_v2)
        = Cert.Gate.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((column_of_result m c).trans (by
          rw [V_main_arg1]
          exact column_eq _ _ _ (band_apply m c) _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Gate.Kernel

end
-- ==== Proof.lean ====
/-
  The certificate: a quantum-gate kernel against its reference, over the extended reals.

  The input is a row of 2^26 numbers, read as 8 bands of 2^23 (the three leading binary digits of a position are the
  band's number, the other 23 the place in the band). A band with an even number is left alone; the four odd bands are
  mixed, place by place, by a 4×4 matrix. Both programs compute exactly this function (`Cert.Gate.G`, Proof/Spec.lean):

  · the kernel reshapes the row to [8, 2^23] and, one column block at a time, copies the even rows and writes into odd
    row `2 t + 1` the sum `((m[t,0]·row1 + m[t,1]·row3) + m[t,2]·row5) + m[t,3]·row7`; the result is reshaped to a column
    (Proof/KernelValue.lean, read off the kernel's run);
  · the reference views the row as [4, 2^23, 2] through a box of 27 axes and a permutation of them, multiplies the
    matrix into the slice whose last coordinate is 1, writes the product over that slice, and undoes the view
    (Proof/Relayout.lean: what the view does to positions; Proof/ScatterRead.lean: the write; Proof/RefValue.lean).

  The two sums differ only in their bracketing, and addition of extended reals is associative, so no finiteness of the
  inputs is used. The three frames are the kernel's runs with the results forgotten; the idealization rewrote nothing.
-/
import proofs.«169698_j22935125360825_1_alg».proof.Defs
import proofs.«169698_j22935125360825_1_alg».proof.Proof.Gen.Kernel
import proofs.«169698_j22935125360825_1_alg».proof.Proof.Gen.Kernel.Skeleton
import proofs.«169698_j22935125360825_1_alg».proof.Proof.Gen.Kernel.Launch
import proofs.«169698_j22935125360825_1_alg».proof.Proof.Gen.Kernel.Points
import proofs.«169698_j22935125360825_1_alg».proof.Proof.Gen.Kernel.Frame
import proofs.«169698_j22935125360825_1_alg».proof.Proof.Gen.KernelIdeal
import proofs.«169698_j22935125360825_1_alg».proof.Proof.Gen.KernelIdeal.Skeleton
import proofs.«169698_j22935125360825_1_alg».proof.Proof.Gen.KernelIdeal.Launch
import proofs.«169698_j22935125360825_1_alg».proof.Proof.Gen.KernelIdeal.Points
import proofs.«169698_j22935125360825_1_alg».proof.Proof.Gen.KernelIdeal.Frame
import proofs.«169698_j22935125360825_1_alg».proof.Proof.Gen.ReferenceIdeal
import proofs.«169698_j22935125360825_1_alg».proof.Proof.Gen.Pre_finite_inputs
import proofs.«169698_j22935125360825_1_alg».proof.Proof.Gen.ReferenceIdeal.Run
import proofs.«169698_j22935125360825_1_alg».proof.Proof.ReadP
import proofs.«169698_j22935125360825_1_alg».proof.Proof.RefValue
import proofs.«169698_j22935125360825_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the row and the matrix, both programs end with the specification's column. -/
theorem algebraic : Cert.algebraic_KernelIdeal_ReferenceIdeal := by
  intro m ρ m' ρ' _ hagree
  refine ⟨_, Cert.Gate.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.ReadP.val_main_v10_eq (F := Ideal) _ _).trans ?_
  rw [Cert.Gate.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
